-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x4096x64 : Shape := ⟨3, ![8, 4096, 64]⟩
abbrev S8x256x1024 : Shape := ⟨3, ![8, 256, 1024]⟩
abbrev S8x1024 : Shape := ⟨2, ![8, 1024]⟩
abbrev S8x1024x1024 : Shape := ⟨3, ![8, 1024, 1024]⟩
abbrev S8x1024x64 : Shape := ⟨3, ![8, 1024, 64]⟩
abbrev S8x64 : Shape := ⟨2, ![8, 64]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024x64 : S_.BroadcastsInDim S8x1024x64 (![] : Fin 0 → Fin S8x1024x64.rank)
  reducesTo_S8x1024x64_S_d0_1_2 : S8x1024x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S8x64 .f32) (main_v33 : IVec S_ 1) : IVec S_ 1 :=
  let main_v34 : FVec F S8x64 .f32 := Host.absf main_arg7
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  main_v38

def fn_part1 {F : FTy → Type} [FloatOps F] (main_arg4 : FVec F S8x1024x1024 .f32) (main_arg5 : FVec F S8x1024 .f32) (main_arg6 : FVec F S8x1024x64 .f32) (main_arg7 : FVec F S8x64 .f32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_v19 : FVec F S8x1024x1024 .f32 := Host.absf main_arg4
  let main_cst_6 : FVec F S_ .f32 := constant S_ .f32 0x7F800000#32
  let main_v20 : FVec F S8x1024x1024 .f32 := broadcastInDim S8x1024x1024 ![] bcast_S_S8x1024x1024 main_cst_6
  let main_v21 : IVec S8x1024x1024 1 := cmpf .olt main_v19 main_v20
  let main_c_7 : IVec S_ 1 := constantI S_ 1 1#1
  let main_v22 : IVec S_ 1 := (fun x v => Host.reduce IntOp.andi x v reducesTo_S8x1024x1024_S_d0_1_2 h_S_) main_v21 main_c_7
  let main_v23 : IVec S_ 1 := andi main_v18 main_v22
  let main_v24 : FVec F S8x1024 .f32 := Host.absf main_arg5
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S8x1024x64 .f32 := Host.absf main_arg6
  let main_cst_10 : FVec F S_ .f32 := constant S_ .f32 0x7F800000#32
  let main_v30 : FVec F S8x1024x64 .f32 := broadcastInDim S8x1024x64 ![] bcast_S_S8x1024x64 main_cst_10
  let main_v31 : IVec S8x1024x64 1 := cmpf .olt main_v29 main_v30
  let main_c_11 : IVec S_ 1 := constantI S_ 1 1#1
  let main_v32 : IVec S_ 1 := (fun x v => Host.reduce IntOp.andi x v reducesTo_S8x1024x64_S_d0_1_2 h_S_) main_v31 main_c_11
  let main_v33 : IVec S_ 1 := andi main_v28 main_v32
  fn_part2 (F := F) main_arg7 main_v33

def fn {F : FTy → Type} [FloatOps F] (main_arg0 : FVec F S8x4096x256 .f32) (main_arg1 : FVec F S8x4096x64 .f32) (main_arg2 : FVec F S8x256x1024 .f32) (main_arg3 : FVec F S8x1024 .f32) (main_arg4 : FVec F S8x1024x1024 .f32) (main_arg5 : FVec F S8x1024 .f32) (main_arg6 : FVec F S8x1024x64 .f32) (main_arg7 : FVec F S8x64 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x256x1024 .f32 := Host.absf main_arg2
  let main_cst_2 : FVec F S_ .f32 := constant S_ .f32 0x7F800000#32
  let main_v10 : FVec F S8x256x1024 .f32 := broadcastInDim S8x256x1024 ![] bcast_S_S8x256x1024 main_cst_2
  let main_v11 : IVec S8x256x1024 1 := cmpf .olt main_v9 main_v10
  let main_c_3 : IVec S_ 1 := constantI S_ 1 1#1
  let main_v12 : IVec S_ 1 := (fun x v => Host.reduce IntOp.andi x v reducesTo_S8x256x1024_S_d0_1_2 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg4 main_arg5 main_arg6 main_arg7 main_v13 main_v16
-- ==== Kernel.lean ====
abbrev S8x4096x256 : Shape := ⟨3, ![8, 4096, 256]⟩
abbrev S8x4096x64 : Shape := ⟨3, ![8, 4096, 64]⟩
abbrev S8x256x1024 : Shape := ⟨3, ![8, 256, 1024]⟩
abbrev S8x1024 : Shape := ⟨2, ![8, 1024]⟩
abbrev S8x1024x1024 : Shape := ⟨3, ![8, 1024, 1024]⟩
abbrev S8x1024x64 : Shape := ⟨3, ![8, 1024, 64]⟩
abbrev S8x64 : Shape := ⟨2, ![8, 64]⟩
abbrev S8x1x1024 : Shape := ⟨3, ![8, 1, 1024]⟩
abbrev S8x1x64 : Shape := ⟨3, ![8, 1, 64]⟩
abbrev S1x1024x256 : Shape := ⟨3, ![1, 1024, 256]⟩
abbrev S1x1024x64 : Shape := ⟨3, ![1, 1024, 64]⟩
abbrev S1x256x1024 : Shape := ⟨3, ![1, 256, 1024]⟩
abbrev S1x1x1024 : Shape := ⟨3, ![1, 1, 1024]⟩
abbrev S1x1024x1024 : Shape := ⟨3, ![1, 1024, 1024]⟩
abbrev S1x1x64 : Shape := ⟨3, ![1, 1, 64]⟩
abbrev S1024x256 : Shape := ⟨2, ![1024, 256]⟩
abbrev S256x1024 : Shape := ⟨2, ![256, 1024]⟩
abbrev S1x1024 : Shape := ⟨2, ![1, 1024]⟩
abbrev S1024x1024 : Shape := ⟨2, ![1024, 1024]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩

abbrev nBuf : Space → Nat
  | .hbm => 17
  | .vmem => 20
  | .smem => 0
  | _ => 0

abbrev bufTy : (tb : Table) → Fin (tcTables nBuf tb) → BufTy
  | .hbm, ⟨0, _⟩ => ⟨S8x4096x256, .f32⟩
  | .hbm, ⟨1, _⟩ => ⟨S8x4096x64, .f32⟩
  | .hbm, ⟨2, _⟩ => ⟨S8x256x1024, .f32⟩
  | .hbm, ⟨3, _⟩ => ⟨S8x1024, .f32⟩
  | .hbm, ⟨4, _⟩ => ⟨S8x1024x1024, .f32⟩
  | .hbm, ⟨5, _⟩ => ⟨S8x1024, .f32⟩
  | .hbm, ⟨6, _⟩ => ⟨S8x1024x64, .f32⟩
  | .hbm, ⟨7, _⟩ => ⟨S8x64, .f32⟩
  | .hbm, ⟨8, _⟩ => ⟨S8x4096x256, .bf16⟩
  | .hbm, ⟨9, _⟩ => ⟨S8x256x1024, .bf16⟩
  | .hbm, ⟨10, _⟩ => ⟨S8x1024x1024, .bf16⟩
  | .hbm, ⟨11, _⟩ => ⟨S8x1024x64, .bf16⟩
  | .hbm, ⟨12, _⟩ => ⟨S8x1x1024, .f32⟩
  | .hbm, ⟨13, _⟩ => ⟨S8x1x1024, .f32⟩
  | .hbm, ⟨14, _⟩ => ⟨S8x1x64, .f32⟩
  | .hbm, ⟨15, _⟩ => ⟨S8x4096x64, .f32⟩
  | .hbm, ⟨16, _⟩ => ⟨S8x4096x64, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x64, .f32⟩
  | .local _ .vmem, ⟨3, _⟩ => ⟨S1x1024x64, .f32⟩
  | .local _ .vmem, ⟨4, _⟩ => ⟨S1x256x1024, .bf16⟩
  | .local _ .vmem, ⟨5, _⟩ => ⟨S1x256x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024x64, .bf16⟩
  | .local _ .vmem, ⟨13, _⟩ => ⟨S1x1024x64, .bf16⟩
  | .local _ .vmem, ⟨14, _⟩ => ⟨S1x1x64, .f32⟩
  | .local _ .vmem, ⟨15, _⟩ => ⟨S1x1x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1x1024x64, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  shapeCasts_S8x1024_S8x1x1024 : S8x1024.ShapeCasts S8x1x1024
  shapeCasts_S8x64_S8x1x64 : S8x64.ShapeCasts S8x1x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .bf16 = 32 ∨ (Rect.block (s := S8x4096x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x1024.size a
  hwx0_2 : ∀ i : grid0.Coords, EltTy.bits .bf16 = 32 ∨ (Rect.block (s := S8x256x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .bf16 = 32 ∨ (Rect.block (s := S8x1024x1024) S1x1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S8x1024x64.size a
  hwx0_6 : ∀ i : grid0.Coords, EltTy.bits .bf16 = 32 ∨ (Rect.block (s := S8x1024x64) S1x1024x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S8x1x64.size a
  hwx0_7 : ∀ i : grid0.Coords, EltTy.bits .f32 = 32 ∨ (Rect.block (s := S8x1x64) S1x1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x64.size a ≤ S8x4096x64.size a
  hwx0_8 : ∀ i : grid0.Coords, EltTy.bits .f32 = 32 ∨ (Rect.block (s := S8x4096x64) S1x1024x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x64.size a ≤ S8x4096x64.size a
  hwx0_9 : ∀ i : grid0.Coords, EltTy.bits .f32 = 32 ∨ (Rect.block (s := S8x4096x64) S1x1024x64.size (cc0_transform_9 i) (hinb0_9 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S1x1024x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S1x1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8x4096x64 : Shape := ⟨3, ![8, 4096, 64]⟩
abbrev S8x256x1024 : Shape := ⟨3, ![8, 256, 1024]⟩
abbrev S8x1024 : Shape := ⟨2, ![8, 1024]⟩
abbrev S8x1024x1024 : Shape := ⟨3, ![8, 1024, 1024]⟩
abbrev S8x1024x64 : Shape := ⟨3, ![8, 1024, 64]⟩
abbrev S8x64 : Shape := ⟨2, ![8, 64]⟩
abbrev S8x4096x1024 : Shape := ⟨3, ![8, 4096, 1024]⟩
abbrev S8x1x1024 : Shape := ⟨3, ![8, 1, 1024]⟩
abbrev S_ : Shape := ⟨0, ![]⟩
abbrev S8x1x64 : Shape := ⟨3, ![8, 1, 64]⟩
abbrev S8x4096 : Shape := ⟨2, ![8, 4096]⟩
abbrev S8x4096x1 : Shape := ⟨3, ![8, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x64, .f32⟩
  | .hbm, ⟨2, _⟩ => ⟨S8x256x1024, .f32⟩
  | .hbm, ⟨3, _⟩ => ⟨S8x1024, .f32⟩
  | .hbm, ⟨4, _⟩ => ⟨S8x1024x1024, .f32⟩
  | .hbm, ⟨5, _⟩ => ⟨S8x1024, .f32⟩
  | .hbm, ⟨6, _⟩ => ⟨S8x1024x64, .f32⟩
  | .hbm, ⟨7, _⟩ => ⟨S8x64, .f32⟩
  | .hbm, ⟨8, _⟩ => ⟨S8x4096x1024, .f32⟩
  | .hbm, ⟨9, _⟩ => ⟨S8x1x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x64, .f32⟩
  | .hbm, ⟨23, _⟩ => ⟨S8x1x64, .f32⟩
  | .hbm, ⟨24, _⟩ => ⟨S8x4096x64, .f32⟩
  | .hbm, ⟨25, _⟩ => ⟨S8x4096x64, .f32⟩
  | .hbm, ⟨26, _⟩ => ⟨S8x4096x64, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x64, .f32⟩
  | .hbm, ⟨37, _⟩ => ⟨S8x4096x64, .f32⟩
  | .hbm, ⟨38, _⟩ => ⟨S_, .f32⟩
  | .hbm, ⟨39, _⟩ => ⟨S8x4096x64, .f32⟩
  | .hbm, ⟨40, _⟩ => ⟨S8x4096x64, .f32⟩
  | .hbm, ⟨41, _⟩ => ⟨S8x4096x64, .f32⟩
  | .hbm, ⟨42, _⟩ => ⟨S8x4096x64, .f32⟩
  | .hbm, ⟨43, _⟩ => ⟨S_, .f32⟩
  | .hbm, ⟨44, _⟩ => ⟨S8x4096x64, .f32⟩
  | .hbm, ⟨45, _⟩ => ⟨S8x4096x64, .f32⟩
  | .hbm, ⟨46, _⟩ => ⟨S8x4096x64, .f32⟩
  | .hbm, ⟨47, _⟩ => ⟨S_, .f32⟩
  | .hbm, ⟨48, _⟩ => ⟨S8x4096x64, .f32⟩
  | .hbm, ⟨49, _⟩ => ⟨S8x4096x64, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x64_0_1_2 : S8x4096x1.BroadcastsInDim S8x4096x64 (![0, 1, 2] : Fin 3 → Fin S8x4096x64.rank)
  bcast_S_S8x4096x64 : S_.BroadcastsInDim S8x4096x64 (![] : Fin 0 → Fin S8x4096x64.rank)
  dot_S8x4096x256_S8x256x1024_S8x4096x1024_2_1_1_2_0_0_wf : DotDims.WF S8x4096x256 S8x256x1024 S8x4096x1024 [2] [1] [1] [2] [0] [0]
  dot_S8x4096x1024_S8x1024x1024_S8x4096x1024_2_1_1_2_0_0_wf : DotDims.WF S8x4096x1024 S8x1024x1024 S8x4096x1024 [2] [1] [1] [2] [0] [0]
  dot_S8x4096x1024_S8x1024x64_S8x4096x64_2_1_1_2_0_0_wf : DotDims.WF S8x4096x1024 S8x1024x64 S8x4096x64 [2] [1] [1] [2] [0] [0]

variable [Facts₀]

def dot_S8x4096x256_S8x256x1024_S8x4096x1024_2_1_1_2_0_0 : DotDims S8x4096x256 S8x256x1024 S8x4096x1024 where
  lhsContracting := [2]
  rhsContracting := [1]
  lhsNonContracting := [1]
  rhsNonContracting := [2]
  lhsBatch := [0]
  rhsBatch := [0]
  wf := dot_S8x4096x256_S8x256x1024_S8x4096x1024_2_1_1_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf
def dot_S8x4096x1024_S8x1024x64_S8x4096x64_2_1_1_2_0_0 : DotDims S8x4096x1024 S8x1024x64 S8x4096x64 where
  lhsContracting := [2]
  rhsContracting := [1]
  lhsNonContracting := [1]
  rhsNonContracting := [2]
  lhsBatch := [0]
  rhsBatch := [0]
  wf := dot_S8x4096x1024_S8x1024x64_S8x4096x64_2_1_1_2_0_0_wf

class Facts : Prop extends Facts₀ where

variable [Facts]
-- ==== Proof.Spec.lean ====
/-
  What both programs compute, stated for one row.

  The network is an ensemble of eight independent three-layer perceptrons. Member `e` has its own weights and
  biases; row `b` of its batch is one observation of 256 numbers. Nothing in the computation mixes rows or members:
  the 64 outputs of row `b` of member `e` are a function of that observation, of that member's parameters and, for
  the sampled action, of that row's 64 noise values. So the whole result is described by a function of ONE
  observation, ONE member's parameters and ONE noise row:

    h₁(o) = max(Σₖ obs(k)·W₁(k,o) + b₁(o), 0)          1024 hidden units
    h₂(o) = max(Σₖ h₁(k)·W₂(k,o) + b₂(o), 0)           1024 hidden units
    μ(a)  = Σₖ h₂(k)·W₃(k,a) + b₃(a)                    64 raw action means
    s     = max((Σₐ |μ(a)|)·2⁻⁶, 1)                     mean magnitude, clamped below at one
    action(a) = tanh(μ(a)/s)·1
    sample(a) = tanh(μ(a)/s + c·ν(a))·1                 c the single-precision constant nearest 0.1

  All arithmetic is on the extended reals (sums of products may be infinite, and the operations have their
  extended-real meanings). The constants are kept as the bit patterns both programs spell.
-/
import Idealize.ShloMosaic.PureOps.Ideal
import Idealize.ShloMosaic.Lib.ValueIdx

noncomputable section

open scoped BigOperators

namespace Cert.Policy

open Idealize.ShloMosaic Idealize.ShloMosaic.ValueIdx

/-- One ensemble member's parameters, each a function of coordinates. -/
structure Member where
  w1 : Fin 256 → Fin 1024 → EReal
  b1 : Fin 1024 → EReal
  w2 : Fin 1024 → Fin 1024 → EReal
  b2 : Fin 1024 → EReal
  w3 : Fin 1024 → Fin 64 → EReal
  b3 : Fin 64 → EReal

namespace Member

variable (M : Member) (obs : Fin 256 → EReal)

/-- The first hidden layer: an affine map of the observation, clamped below at zero. -/
def hidden1 (o : Fin 1024) : EReal :=
  max ((∑ k : Fin 256, obs k * M.w1 k o) + M.b1 o) (Ideal.ofBits .f32 0x00000000#32)

/-- The second hidden layer: the same of the first. -/
def hidden2 (o : Fin 1024) : EReal :=
  max ((∑ k : Fin 1024, M.hidden1 obs k * M.w2 k o) + M.b2 o) (Ideal.ofBits .f32 0x00000000#32)

/-- The raw action means: an affine map of the second hidden layer. -/
def mean (a : Fin 64) : EReal :=
  (∑ k : Fin 1024, M.hidden2 obs k * M.w3 k a) + M.b3 a

/-- The sum of the 64 raw means' magnitudes. -/
def magnitude : EReal := ∑ a : Fin 64, max (M.mean obs a) (-(M.mean obs a))

/-- The normalizer: the mean magnitude (the sum times 2⁻⁶), clamped below at one. -/
def scale : EReal :=
  max (M.magnitude obs * Ideal.ofBits .f32 0x3C800000#32) (Ideal.ofBits .f32 0x3F800000#32)

/-- A raw mean over the normalizer. -/
def normed (a : Fin 64) : EReal := Ideal.div (M.mean obs a) (M.scale obs)

/-- The deterministic action. -/
def action (a : Fin 64) : EReal := Ideal.tanh (M.normed obs a) * Ideal.ofBits .f32 0x3F800000#32

/-- The sampled action, with the row's noise `ν`. -/
def sample (ν : Fin 64 → EReal) (a : Fin 64) : EReal :=
  Ideal.tanh (M.normed obs a + Ideal.ofBits .f32 0x3DCCCCCD#32 * ν a) * Ideal.ofBits .f32 0x3F800000#32

end Member

/-! ## The whole arrays -/

section Arrays

variable (X : FVec Ideal ⟨3, ![8, 4096, 256]⟩ .f32) (N : FVec Ideal ⟨3, ![8, 4096, 64]⟩ .f32)
  (W1 : FVec Ideal ⟨3, ![8, 256, 1024]⟩ .f32) (B1 : FVec Ideal ⟨2, ![8, 1024]⟩ .f32)
  (W2 : FVec Ideal ⟨3, ![8, 1024, 1024]⟩ .f32) (B2 : FVec Ideal ⟨2, ![8, 1024]⟩ .f32)
  (W3 : FVec Ideal ⟨3, ![8, 1024, 64]⟩ .f32) (B3 : FVec Ideal ⟨2, ![8, 64]⟩ .f32)

/-- Member `e`'s parameters, cut out of the stacked parameter arrays. -/
def memberOf (e : Fin 8) : Member where
  w1 k o := W1 (ix3 e k o)
  b1 o := B1 (ix2 e o)
  w2 k o := W2 (ix3 e k o)
  b2 o := B2 (ix2 e o)
  w3 k a := W3 (ix3 e k a)
  b3 a := B3 (ix2 e a)

/-- Row `b` of member `e`'s batch. -/
def rowOf (e : Fin 8) (b : Fin 4096) : Fin 256 → EReal := fun k => X (ix3 e b k)

/-- Row `b` of member `e`'s noise. -/
def noiseOf (e : Fin 8) (b : Fin 4096) : Fin 64 → EReal := fun a => N (ix3 e b a)

/-- The array of deterministic actions: entry `(e, b, a)` is member `e`'s action `a` on its row `b`. -/
def actions : FVec Ideal ⟨3, ![8, 4096, 64]⟩ .f32 := fun i =>
  (memberOf W1 B1 W2 B2 W3 B3 (i 0)).action (rowOf X (i 0) (i 1)) (i 2)

/-- The array of sampled actions. -/
def samples : FVec Ideal ⟨3, ![8, 4096, 64]⟩ .f32 := fun i =>
  (memberOf W1 B1 W2 B2 W3 B3 (i 0)).sample (rowOf X (i 0) (i 1)) (noiseOf N (i 0) (i 1)) (i 2)

theorem actions_apply (e : Fin 8) (b : Fin 4096) (a : Fin 64) :
    actions X W1 B1 W2 B2 W3 B3 (ix3 e b a) = (memberOf W1 B1 W2 B2 W3 B3 e).action (rowOf X e b) a := rfl

theorem samples_apply (e : Fin 8) (b : Fin 4096) (a : Fin 64) :
    samples X N W1 B1 W2 B2 W3 B3 (ix3 e b a)
      = (memberOf W1 B1 W2 B2 W3 B3 e).sample (rowOf X e b) (noiseOf N e b) a := rfl

end Arrays

/-! ## Two indices with equal coordinates are equal -/

theorem ext3 {n0 n1 n2 : ℕ} {i j : (⟨3, ![n0, n1, n2]⟩ : Shape).Idx} (h0 : (i 0).val = (j 0).val)
    (h1 : (i 1).val = (j 1).val) (h2 : (i 2).val = (j 2).val) : i = j :=
  funext fun a => Fin.ext (by
    match a with
    | ⟨0, _⟩ => exact h0
    | ⟨1, _⟩ => exact h1
    | ⟨2, _⟩ => exact h2)

theorem ext2 {n0 n1 : ℕ} {i j : (⟨2, ![n0, n1]⟩ : Shape).Idx} (h0 : (i 0).val = (j 0).val)
    (h1 : (i 1).val = (j 1).val) : i = j :=
  funext fun a => Fin.ext (by
    match a with
    | ⟨0, _⟩ => exact h0
    | ⟨1, _⟩ => exact h1)

theorem ext1 {n0 : ℕ} {i j : (⟨1, ![n0]⟩ : Shape).Idx} (h0 : (i 0).val = (j 0).val) : i = j :=
  funext fun a => Fin.ext (by
    match a with
    | ⟨0, _⟩ => exact h0)

end Cert.Policy

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibDenseLayer.lean ====
/-
  A dense layer and a row sum, as a kernel writes them over blocks with a leading unit axis, read at one entry.

  A Pallas kernel that works on one member of a stack sees its operands as blocks with a leading axis of extent one:
  a weight block of shape [1, K, N] and a bias block of shape [1, 1, N]. It drops the unit axes by shape casts,
  multiplies an M × K activation matrix by the K × N weights into a zero accumulator, and adds the bias row broadcast
  down the M rows. At the exact instance, entry (p, j) of that value is
      Σₖ a(p, k) · w(0, k, j)  +  β(0, 0, j),
  for every M, K, N and whatever the operands' float formats. The dimension record may be any record equal to the
  plain one (a program prints its own record with the same numbers).

  The same layer clamped below at a constant (a rectifier) and changed of float format reads as the maximum of that
  sum and the constant.

  The host hands the kernel a stack of bias vectors [G, n] as a stack of one-row matrices [G, 1, n]: entry (g, 0, o)
  of the cast is entry (g, o) of the stack.

  A `vector.multi_reduction <add>` of an M × N matrix over its second axis, at entry `r`, is the sum of row `r`.
-/
import Idealize.ShloMosaic.PureOps.Ideal.Laws
import Idealize.ShloMosaic.Lib.ValueIdx
import Idealize.ShloMosaic.Lib.ValueLayout
import proofs.«119504_j60902636257569_1_alg».proof.Proof.LibPlainProduct

noncomputable section

open scoped BigOperators

namespace Cert.LibDenseLayer

open Idealize.ShloMosaic Idealize.ShloMosaic.ValueIdx

variable {M K N : ℕ}

/-- The bias block's row, broadcast down the rows, at `(p, j)`: the block's entry `(0, 0, j)`. -/
theorem biasRows_apply (β : FVec Ideal ⟨3, ![1, 1, N]⟩ .f32)
    (hβ : (⟨3, ![1, 1, N]⟩ : Shape).ShapeCasts ⟨2, ![1, N]⟩)
    (hb : (⟨2, ![1, N]⟩ : Shape).Broadcasts ⟨2, ![M, N]⟩) (p : Fin M) (j : Fin N) :
    broadcastTo ⟨2, ![M, N]⟩ (shapeCast ⟨2, ![1, N]⟩ β hβ) hb (ix2 p j) = β (ix3 (0 : Fin 1) (0 : Fin 1) j) := by
  rw [broadcastTo_1b_ab_apply, shapeCast_1ab_ab_apply]

/-- The affine layer at `(p, j)`. -/
theorem affine_apply {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨3, ![1, K, N]⟩ φ₂)
    (β : FVec Ideal ⟨3, ![1, 1, N]⟩ .f32)
    (hw : (⟨3, ![1, K, N]⟩ : Shape).ShapeCasts ⟨2, ![K, N]⟩)
    (hβ : (⟨3, ![1, 1, N]⟩ : Shape).ShapeCasts ⟨2, ![1, N]⟩)
    (hb : (⟨2, ![1, N]⟩ : Shape).Broadcasts ⟨2, ![M, N]⟩) (p : Fin M) (j : Fin N) :
    addf (matmul d prec a (shapeCast ⟨2, ![K, N]⟩ w hw) (constant ⟨2, ![M, N]⟩ .f32 0x00000000#32))
        (broadcastTo ⟨2, ![M, N]⟩ (shapeCast ⟨2, ![1, N]⟩ β hβ) hb) (ix2 p j)
      = (∑ k : Fin K, a (ix2 p k) * w (ix3 (0 : Fin 1) k j)) + β (ix3 (0 : Fin 1) (0 : Fin 1) j) := by
  subst hd
  show FloatOps.matmul (DotDims.plain M K N) prec a (shapeCast ⟨2, ![K, N]⟩ w hw)
      (constant ⟨2, ![M, N]⟩ .f32 0x00000000#32) (ix2 p j)
      + broadcastTo ⟨2, ![M, N]⟩ (shapeCast ⟨2, ![1, N]⟩ β hβ) hb (ix2 p j) = _
  rw [Cert.LibPlainProduct.matmul_zero_plain_apply, biasRows_apply]
  exact congrArg (· + β (ix3 (0 : Fin 1) (0 : Fin 1) j))
    (Finset.sum_congr rfl fun k _ => by rw [shapeCast_1ab_ab_apply])

/-- The affine layer clamped below at `z` and then changed of float format (the identity on exact values), at `(p, j)`. -/
theorem clamped_affine_apply {φ₁ φ₂ ψ : FTy} (d : DotDims ⟨2, ![M, K]⟩ ⟨2, ![K, N]⟩ ⟨2, ![M, N]⟩)
    (hd : d = DotDims.plain M K N) (prec : Option ContractPrecision) (a : FVec Ideal ⟨2, ![M, K]⟩ φ₁)
    (w : FVec Ideal ⟨3, ![1, K, N]⟩ φ₂) (β : FVec Ideal ⟨3, ![1, 1, N]⟩ .f32) (z : Ideal .f32)
    (hw : (⟨3, ![1, K, N]⟩ : Shape).ShapeCasts ⟨2, ![K, N]⟩)
    (hβ : (⟨3, ![1, 1, N]⟩ : Shape).ShapeCasts ⟨2, ![1, N]⟩)
    (hb : (⟨2, ![1, N]⟩ : Shape).Broadcasts ⟨2, ![M, N]⟩) (hψ : ψ.bits < FTy.f32.bits) (p : Fin M) (j : Fin N) :
    truncf ψ (maximumf (addf (matmul d prec a (shapeCast ⟨2, ![K, N]⟩ w hw) (constant ⟨2, ![M, N]⟩ .f32 0x00000000#32))
        (broadcastTo ⟨2, ![M, N]⟩ (shapeCast ⟨2, ![1, N]⟩ β hβ) hb)) (broadcast ⟨2, ![M, N]⟩ z)) hψ (ix2 p j)
      = max ((∑ k : Fin K, a (ix2 p k) * w (ix3 (0 : Fin 1) k j)) + β (ix3 (0 : Fin 1) (0 : Fin 1) j)) z :=
  congrArg (max · z) (affine_apply d hd prec a w β hw hβ hb p j)

/-- A stack of `G` bias vectors cast to a stack of one-row matrices, at `(g, u, o)`: vector `g` at `o`. -/
theorem stackRows_apply {α : Type} {G n : ℕ} (B : (⟨2, ![G, n]⟩ : Shape).Idx → α)
    (h : (⟨2, ![G, n]⟩ : Shape).ShapeCasts ⟨3, ![G, 1, n]⟩) (g : Fin G) (u : Fin 1) (o : Fin n) :
    shapeCast ⟨3, ![G, 1, n]⟩ B h (ix3 g u o) = B (ix2 g o) :=
  shapeCast_apply B h _ _ (by
    have hu : u.val = 0 := by omega
    rw [Shape.rowMajor_val_two, Shape.rowMajor_val_three]
    show g.val * n + o.val = (g.val * 1 + u.val) * n + o.val
    rw [hu, Nat.mul_one, Nat.add_zero])

/-- The sum of an M × N matrix along its rows, at row `r`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (r : Fin M) :
    multiReduction .add [1] ⟨1, ![M]⟩ src acc h hφ hacc (ix1 r) = ∑ a : Fin N, src (ix2 r a) := by
  rw [Ideal.multiReduction_add_single]
  exact Finset.sum_congr rfl fun a _ => congrArg src (funext fun c => Fin.ext (by
    match c with
    | ⟨0, _⟩ => rfl
    | ⟨1, _⟩ => rfl))

end Cert.LibDenseLayer

end
-- ==== Proof.KernelRow.lean ====
/-
  The kernel's body, read at one entry of its output blocks.

  At a grid point the body sees one member's parameter blocks (leading unit axis) and a block of 1024 observation
  rows. Entry (0, r, a) of each output block is the row function of the specification at the block's row `r` and the
  block's member: the three matrix products are the three layers' sums, the lane reduction is the row's magnitude
  sum, and the changes of float format are the identity on exact values.
-/
import proofs.«119504_j60902636257569_1_alg».proof.Proof.Gen.KernelIdeal.Value
import proofs.«119504_j60902636257569_1_alg».proof.Proof.Spec
import proofs.«119504_j60902636257569_1_alg».proof.Proof.LibDenseLayer

noncomputable section

open scoped BigOperators

namespace Cert.Policy.Kernel

open Cert.KernelIdeal Cert.KernelIdeal.Gen Idealize.ShloMosaic Idealize.ShloMosaic.ValueIdx Cert.Policy

variable (P0 : FVec Ideal S1x1024x256 .bf16) (P1 : FVec Ideal S1x256x1024 .bf16) (P2 : FVec Ideal S1x1x1024 .f32)
  (P3 : FVec Ideal S1x1024x1024 .bf16) (P4 : FVec Ideal S1x1x1024 .f32) (P5 : FVec Ideal S1x1024x64 .bf16)
  (P6 : FVec Ideal S1x1x64 .f32) (P7 : FVec Ideal S1x1024x64 .f32)

/-- The member whose parameters are the six parameter blocks. -/
def blockMember : Member where
  w1 k o := P1 (ix3 (0 : Fin 1) k o)
  b1 o := P2 (ix3 (0 : Fin 1) (0 : Fin 1) o)
  w2 k o := P3 (ix3 (0 : Fin 1) k o)
  b2 o := P4 (ix3 (0 : Fin 1) (0 : Fin 1) o)
  w3 k a := P5 (ix3 (0 : Fin 1) k a)
  b3 a := P6 (ix3 (0 : Fin 1) (0 : Fin 1) a)

/-- Row `r` of the observation block. -/
def blockRow (r : Fin 1024) : Fin 256 → EReal := fun k => P0 (ix3 (0 : Fin 1) r k)

/-- Row `r` of the noise block. -/
def blockNoise (r : Fin 1024) : Fin 64 → EReal := fun a => P7 (ix3 (0 : Fin 1) r a)

/-- The raw means the body computes, at `(r, a)`: three layers of sums, innermost the observation block's row. -/
theorem mean_at (r : Fin 1024) (a : Fin 64) :
    k0_pay4 (F := Ideal) P0 P1 P2 P3 P4 P5 P6 (ix2 r a)
      = (blockMember P1 P2 P3 P4 P5 P6).mean (blockRow P0 r) a := by
  unfold k0_pay4
  refine (Cert.LibDenseLayer.affine_apply _ rfl none _ P5 P6 _ _ _ r a).trans ?_
  refine congrArg (· + P6 (ix3 (0 : Fin 1) (0 : Fin 1) a))
    (Finset.sum_congr rfl fun k _ => congrArg (· * P5 (ix3 (0 : Fin 1) k a)) ?_)
  refine (Cert.LibDenseLayer.clamped_affine_apply _ rfl none _ P3 P4 _ _ _ _ _ r k).trans ?_
  refine congrArg (max · (Ideal.ofBits .f32 0x00000000#32)) (congrArg (· + P4 (ix3 (0 : Fin 1) (0 : Fin 1) k))
    (Finset.sum_congr rfl fun k' _ => congrArg (· * P3 (ix3 (0 : Fin 1) k' k)) ?_))
  refine (Cert.LibDenseLayer.clamped_affine_apply _ rfl none _ P1 P2 _ _ _ _ _ r k').trans ?_
  refine congrArg (max · (Ideal.ofBits .f32 0x00000000#32)) (congrArg (· + P2 (ix3 (0 : Fin 1) (0 : Fin 1) k'))
    (Finset.sum_congr rfl fun k'' _ => congrArg (· * P1 (ix3 (0 : Fin 1) k'' k')) ?_))
  exact shapeCast_1ab_ab_apply P0 _ r k''

/-- The lane reduction of the raw means' magnitudes, at row `r`: the row's magnitude sum. -/
theorem magnitude_at (r : Fin 1024) :
    multiReduction .add [1] S1024 (absf (k0_pay4 (F := Ideal) P0 P1 P2 P3 P4 P5 P6)) 0x00000000#32
        reduces_S1024x64_S1024 (.inl rfl) rfl (ix1 r)
      = (blockMember P1 P2 P3 P4 P5 P6).magnitude (blockRow P0 r) := by
  refine (Cert.LibDenseLayer.rowSum_apply _ _ _ _ _ r).trans ?_
  refine Finset.sum_congr rfl fun a _ => ?_
  show max (k0_pay4 (F := Ideal) P0 P1 P2 P3 P4 P5 P6 (ix2 r a)) (-(k0_pay4 (F := Ideal) P0 P1 P2 P3 P4 P5 P6 (ix2 r a))) = _
  rw [mean_at]

/-- Entry `(0, r, a)` of the first output block: the deterministic action of the block's member on row `r`. -/
theorem action_at (r : Fin 1024) (a : Fin 64) :
    Cert.KernelIdeal.Value.E8 (F := Ideal) P0 P1 P2 P3 P4 P5 P6 (ix3 (0 : Fin 1) r a)
      = (blockMember P1 P2 P3 P4 P5 P6).action (blockRow P0 r) a := by
  have e0 : Cert.KernelIdeal.Value.ix8_0 (ix3 (0 : Fin 1) r a) = ix2 r a := ext2 rfl rfl
  have e1 : Cert.KernelIdeal.Value.ix8_1 (ix3 (0 : Fin 1) r a) = ix1 r := ext1 rfl
  unfold Cert.KernelIdeal.Value.E8
  rw [e0, e1, mean_at, magnitude_at]
  rfl

/-- Entry `(0, r, a)` of the second output block: the sampled action, with row `r` of the noise block. -/
theorem sample_at (r : Fin 1024) (a : Fin 64) :
    Cert.KernelIdeal.Value.E9 (F := Ideal) P0 P1 P2 P3 P4 P5 P6 P7 (ix3 (0 : Fin 1) r a)
      = (blockMember P1 P2 P3 P4 P5 P6).sample (blockRow P0 r) (blockNoise P7 r) a := by
  have e0 : Cert.KernelIdeal.Value.ix9_0 (ix3 (0 : Fin 1) r a) = ix2 r a := ext2 rfl rfl
  have e1 : Cert.KernelIdeal.Value.ix9_1 (ix3 (0 : Fin 1) r a) = ix1 r := ext1 rfl
  have e2 : Cert.KernelIdeal.Value.ix9_2 (ix3 (0 : Fin 1) r a) = ix3 (0 : Fin 1) r a := ext3 rfl rfl rfl
  unfold Cert.KernelIdeal.Value.E9
  rw [e0, e1, e2, mean_at, magnitude_at]
  rfl

end Cert.Policy.Kernel

end
-- ==== Proof.Blocks.lean ====
/-
  From blocks to arrays.

  The grid has a point for each member `e` (8) and each tile `q` of 1024 consecutive batch rows (4). At the point
  (e, q) the pipeline hands the body member `e`'s six parameter blocks, rows 1024·q … 1024·q + 1023 of member `e`'s
  observations and of its noise, and writes the two results back to the same rows of member `e`'s output arrays.
  Before the launch the host changes the float format of the observations and weights (the identity on exact
  values) and views each stack of bias vectors [8, n] as a stack of one-row matrices [8, 1, n].

  So entry (0, r, a) of what a point writes back is the specification's row function at member `e`, batch row
  1024·q + r: the block of the array of actions (of samples) that the point's window names. The 32 blocks tile each
  output array, hence after the run each output array is the specification's array.
-/
import proofs.«119504_j60902636257569_1_alg».proof.Proof.Gen.KernelIdeal.Value
import proofs.«119504_j60902636257569_1_alg».proof.Proof.Spec
import proofs.«119504_j60902636257569_1_alg».proof.Proof.KernelRow
import proofs.«119504_j60902636257569_1_alg».proof.Proof.LibDenseLayer
import Idealize.ShloMosaic.Lib.StableHlo.Run

noncomputable section

open scoped BigOperators

namespace Cert.Policy.Blocks

open Cert.KernelIdeal Cert.KernelIdeal.Gen Cert.KernelIdeal.Value Idealize.ShloMosaic Idealize.ShloMosaic.TcCoe
  Idealize.ShloMosaic.ValueIdx Idealize.SL.Sem Cert.Policy Cert.Policy.Kernel
open Idealize.ShloMosaic.Pipeline (Dat)

variable (m : (ℓ : Loc nD τ sig) → Buf (Elt Ideal) ℓ) (ρ : Dev nD → PrngReg)

/-! ## The arrays the region finds -/

/-- The observations as the region finds them: the change of float format is the identity on exact values. -/
theorem V_obs (c : Dev nD) : (V m c main_v0 : S8x4096x256.Idx → EReal) = m ((c : Thread nD τ).loc main_arg0) := by
  dsimp only [Gen.V, Gen.hostOps0]; after_results; rfl

/-- The three weight stacks likewise. -/
theorem V_w1 (c : Dev nD) : (V m c main_v1 : S8x256x1024.Idx → EReal) = m ((c : Thread nD τ).loc main_arg2) := by
  dsimp only [Gen.V, Gen.hostOps0]; after_results; rfl

theorem V_w2 (c : Dev nD) : (V m c main_v2 : S8x1024x1024.Idx → EReal) = m ((c : Thread nD τ).loc main_arg4) := by
  dsimp only [Gen.V, Gen.hostOps0]; after_results; rfl

theorem V_w3 (c : Dev nD) : (V m c main_v3 : S8x1024x64.Idx → EReal) = m ((c : Thread nD τ).loc main_arg6) := by
  dsimp only [Gen.V, Gen.hostOps0]; after_results; rfl

/-- Each stack of bias vectors is viewed as a stack of one-row matrices. -/
theorem V_b1 (c : Dev nD) : (V m c main_v4 : S8x1x1024.Idx → EReal)
    = shapeCast S8x1x1024 (m ((c : Thread nD τ).loc main_arg3) : S8x1024.Idx → EReal) shapeCasts_S8x1024_S8x1x1024 := by
  dsimp only [Gen.V, Gen.hostOps0]; after_results; rfl

theorem V_b2 (c : Dev nD) : (V m c main_v5 : S8x1x1024.Idx → EReal)
    = shapeCast S8x1x1024 (m ((c : Thread nD τ).loc main_arg5) : S8x1024.Idx → EReal) shapeCasts_S8x1024_S8x1x1024 := by
  dsimp only [Gen.V, Gen.hostOps0]; after_results; rfl

theorem V_b3 (c : Dev nD) : (V m c main_v6 : S8x1x64.Idx → EReal)
    = shapeCast S8x1x64 (m ((c : Thread nD τ).loc main_arg7) : S8x64.Idx → EReal) shapeCasts_S8x64_S8x1x64 := by
  dsimp only [Gen.V, Gen.hostOps0]; after_results; rfl

/-! ## Where each window's block sits at a point -/

/-- The printed index maps over the 32 points: the outputs' block index is (member, tile, 0) with member below 8 and
    tile below 4; the observation and noise windows move with it; each parameter window's is (member, 0, 0). -/
theorem idx_facts : ∀ t : Fin cfg0.N,
    win0_8.index t (0 : Fin 3) < 8 ∧ win0_8.index t (1 : Fin 3) < 4 ∧ win0_8.index t (2 : Fin 3) = 0
    ∧ win0_9.index t (0 : Fin 3) = win0_8.index t (0 : Fin 3) ∧ win0_9.index t (1 : Fin 3) = win0_8.index t (1 : Fin 3) ∧ win0_9.index t (2 : Fin 3) = 0
    ∧ win0_0.index t (0 : Fin 3) = win0_8.index t (0 : Fin 3) ∧ win0_0.index t (1 : Fin 3) = win0_8.index t (1 : Fin 3) ∧ win0_0.index t (2 : Fin 3) = 0
    ∧ win0_1.index t (0 : Fin 3) = win0_8.index t (0 : Fin 3) ∧ win0_1.index t (1 : Fin 3) = win0_8.index t (1 : Fin 3) ∧ win0_1.index t (2 : Fin 3) = 0
    ∧ win0_2.index t (0 : Fin 3) = win0_8.index t (0 : Fin 3) ∧ win0_2.index t (1 : Fin 3) = 0 ∧ win0_2.index t (2 : Fin 3) = 0
    ∧ win0_3.index t (0 : Fin 3) = win0_8.index t (0 : Fin 3) ∧ win0_3.index t (1 : Fin 3) = 0 ∧ win0_3.index t (2 : Fin 3) = 0
    ∧ win0_4.index t (0 : Fin 3) = win0_8.index t (0 : Fin 3) ∧ win0_4.index t (1 : Fin 3) = 0 ∧ win0_4.index t (2 : Fin 3) = 0
    ∧ win0_5.index t (0 : Fin 3) = win0_8.index t (0 : Fin 3) ∧ win0_5.index t (1 : Fin 3) = 0 ∧ win0_5.index t (2 : Fin 3) = 0
    ∧ win0_6.index t (0 : Fin 3) = win0_8.index t (0 : Fin 3) ∧ win0_6.index t (1 : Fin 3) = 0 ∧ win0_6.index t (2 : Fin 3) = 0
    ∧ win0_7.index t (0 : Fin 3) = win0_8.index t (0 : Fin 3) ∧ win0_7.index t (1 : Fin 3) = 0 ∧ win0_7.index t (2 : Fin 3) = 0 :=
  (by decide +kernel : ∀ t : Fin grid0.N, _)

/-- Every (member, tile) is some point's. -/
theorem idx_onto : ∀ (q0 : Fin 8) (q1 : Fin 4), ∃ t : Fin cfg0.N,
    win0_8.index t = ![q0.val, q1.val, 0] ∧ win0_9.index t = ![q0.val, q1.val, 0] :=
  (by decide +kernel : ∀ (q0 : Fin 8) (q1 : Fin 4), ∃ t : Fin grid0.N,
    win0_8.index t = ![q0.val, q1.val, 0] ∧ win0_9.index t = ![q0.val, q1.val, 0])

/-- The member a point works on. -/
abbrev memberAt (t : Fin cfg0.N) : Fin 8 := ⟨win0_8.index t (0 : Fin 3), (idx_facts t).1⟩

/-- The batch row that row `r` of a point's tile is. -/
abbrev rowAt (t : Fin cfg0.N) (r : Fin 1024) : Fin 4096 :=
  ⟨win0_8.index t (1 : Fin 3) * 1024 + r.val, by have := (idx_facts t).2.1; have := r.isLt; omega⟩

/-! ## The blocks, named at their literal types, and read -/

abbrev obsBlk (c : Dev nD) (t : Fin cfg0.N) : FVec Ideal S1x1024x256 .bf16 := iblk m c 0 t
abbrev noiseBlk (c : Dev nD) (t : Fin cfg0.N) : FVec Ideal S1x1024x64 .f32 := iblk m c 1 t
abbrev w1Blk (c : Dev nD) (t : Fin cfg0.N) : FVec Ideal S1x256x1024 .bf16 := iblk m c 2 t
abbrev b1Blk (c : Dev nD) (t : Fin cfg0.N) : FVec Ideal S1x1x1024 .f32 := iblk m c 3 t
abbrev w2Blk (c : Dev nD) (t : Fin cfg0.N) : FVec Ideal S1x1024x1024 .bf16 := iblk m c 4 t
abbrev b2Blk (c : Dev nD) (t : Fin cfg0.N) : FVec Ideal S1x1x1024 .f32 := iblk m c 5 t
abbrev w3Blk (c : Dev nD) (t : Fin cfg0.N) : FVec Ideal S1x1024x64 .bf16 := iblk m c 6 t
abbrev b3Blk (c : Dev nD) (t : Fin cfg0.N) : FVec Ideal S1x1x64 .f32 := iblk m c 7 t

theorem obs_read (c : Dev nD) (t : Fin cfg0.N) (r : Fin 1024) (k : Fin 256) :
    obsBlk m c t (ix3 (0 : Fin 1) r k) = m ((c : Thread nD τ).loc main_arg0) (ix3 (memberAt t) (rowAt t r) k) := by
  show V m c main_v0 (((cfg0.win 0).blk t).view.emb (ix3 (0 : Fin 1) r k)) = _
  rw [V_obs m c]
  obtain ⟨-, -, -, -, -, -, e0, e1, e2, -⟩ := idx_facts t
  refine congrArg (m ((c : Thread nD τ).loc main_arg0) : S8x4096x256.Idx → EReal) (ext3 (n0 := 8) (n1 := 4096) (n2 := 256) ?_ ?_ ?_)
  · show win0_0.index t (0 : Fin 3) * 1 + 1 * 0 = win0_8.index t (0 : Fin 3); omega
  · show win0_0.index t (1 : Fin 3) * 1024 + 1 * r.val = win0_8.index t (1 : Fin 3) * 1024 + r.val; omega
  · show win0_0.index t (2 : Fin 3) * 256 + 1 * k.val = k.val; omega

theorem noise_read (c : Dev nD) (t : Fin cfg0.N) (r : Fin 1024) (a : Fin 64) :
    noiseBlk m c t (ix3 (0 : Fin 1) r a) = m ((c : Thread nD τ).loc main_arg1) (ix3 (memberAt t) (rowAt t r) a) := by
  show V m c main_arg1 (((cfg0.win 1).blk t).view.emb (ix3 (0 : Fin 1) r a)) = _
  rw [V_main_arg1 m c]
  obtain ⟨-, -, -, -, -, -, -, -, -, e0, e1, e2, -⟩ := idx_facts t
  refine congrArg (m ((c : Thread nD τ).loc main_arg1) : S8x4096x64.Idx → EReal) (ext3 (n0 := 8) (n1 := 4096) (n2 := 64) ?_ ?_ ?_)
  · show win0_1.index t (0 : Fin 3) * 1 + 1 * 0 = win0_8.index t (0 : Fin 3); omega
  · show win0_1.index t (1 : Fin 3) * 1024 + 1 * r.val = win0_8.index t (1 : Fin 3) * 1024 + r.val; omega
  · show win0_1.index t (2 : Fin 3) * 64 + 1 * a.val = a.val; omega

theorem w1_read (c : Dev nD) (t : Fin cfg0.N) (k : Fin 256) (o : Fin 1024) :
    w1Blk m c t (ix3 (0 : Fin 1) k o) = m ((c : Thread nD τ).loc main_arg2) (ix3 (memberAt t) k o) := by
  show V m c main_v1 (((cfg0.win 2).blk t).view.emb (ix3 (0 : Fin 1) k o)) = _
  rw [V_w1 m c]
  obtain ⟨-, -, -, -, -, -, -, -, -, -, -, -, e0, e1, e2, -⟩ := idx_facts t
  refine congrArg (m ((c : Thread nD τ).loc main_arg2) : S8x256x1024.Idx → EReal) (ext3 (n0 := 8) (n1 := 256) (n2 := 1024) ?_ ?_ ?_)
  · show win0_2.index t (0 : Fin 3) * 1 + 1 * 0 = win0_8.index t (0 : Fin 3); omega
  · show win0_2.index t (1 : Fin 3) * 256 + 1 * k.val = k.val; omega
  · show win0_2.index t (2 : Fin 3) * 1024 + 1 * o.val = o.val; omega

theorem b1_read (c : Dev nD) (t : Fin cfg0.N) (o : Fin 1024) :
    b1Blk m c t (ix3 (0 : Fin 1) (0 : Fin 1) o) = m ((c : Thread nD τ).loc main_arg3) (ix2 (memberAt t) o) := by
  show V m c main_v4 (((cfg0.win 3).blk t).view.emb (ix3 (0 : Fin 1) (0 : Fin 1) o)) = _
  rw [V_b1 m c]
  obtain ⟨-, -, -, -, -, -, -, -, -, -, -, -, -, -, -, e0, e1, e2, -⟩ := idx_facts t
  refine Eq.trans (congrArg _ (ext3 (n0 := 8) (n1 := 1) (n2 := 1024) (j := ix3 (memberAt t) (0 : Fin 1) o) ?_ ?_ ?_))
    (Cert.LibDenseLayer.stackRows_apply _ _ (memberAt t) (0 : Fin 1) o)
  · show win0_3.index t (0 : Fin 3) * 1 + 1 * 0 = win0_8.index t (0 : Fin 3); omega
  · show win0_3.index t (1 : Fin 3) * 1 + 1 * 0 = 0; omega
  · show win0_3.index t (2 : Fin 3) * 1024 + 1 * o.val = o.val; omega

theorem w2_read (c : Dev nD) (t : Fin cfg0.N) (k : Fin 1024) (o : Fin 1024) :
    w2Blk m c t (ix3 (0 : Fin 1) k o) = m ((c : Thread nD τ).loc main_arg4) (ix3 (memberAt t) k o) := by
  show V m c main_v2 (((cfg0.win 4).blk t).view.emb (ix3 (0 : Fin 1) k o)) = _
  rw [V_w2 m c]
  obtain ⟨-, -, -, -, -, -, -, -, -, -, -, -, -, -, -, -, -, -, e0, e1, e2, -⟩ := idx_facts t
  refine congrArg (m ((c : Thread nD τ).loc main_arg4) : S8x1024x1024.Idx → EReal) (ext3 (n0 := 8) (n1 := 1024) (n2 := 1024) ?_ ?_ ?_)
  · show win0_4.index t (0 : Fin 3) * 1 + 1 * 0 = win0_8.index t (0 : Fin 3); omega
  · show win0_4.index t (1 : Fin 3) * 1024 + 1 * k.val = k.val; omega
  · show win0_4.index t (2 : Fin 3) * 1024 + 1 * o.val = o.val; omega

theorem b2_read (c : Dev nD) (t : Fin cfg0.N) (o : Fin 1024) :
    b2Blk m c t (ix3 (0 : Fin 1) (0 : Fin 1) o) = m ((c : Thread nD τ).loc main_arg5) (ix2 (memberAt t) o) := by
  show V m c main_v5 (((cfg0.win 5).blk t).view.emb (ix3 (0 : Fin 1) (0 : Fin 1) o)) = _
  rw [V_b2 m c]
  obtain ⟨-, -, -, -, -, -, -, -, -, -, -, -, -, -, -, -, -, -, -, -, -, e0, e1, e2, -⟩ := idx_facts t
  refine Eq.trans (congrArg _ (ext3 (n0 := 8) (n1 := 1) (n2 := 1024) (j := ix3 (memberAt t) (0 : Fin 1) o) ?_ ?_ ?_))
    (Cert.LibDenseLayer.stackRows_apply _ _ (memberAt t) (0 : Fin 1) o)
  · show win0_5.index t (0 : Fin 3) * 1 + 1 * 0 = win0_8.index t (0 : Fin 3); omega
  · show win0_5.index t (1 : Fin 3) * 1 + 1 * 0 = 0; omega
  · show win0_5.index t (2 : Fin 3) * 1024 + 1 * o.val = o.val; omega

theorem w3_read (c : Dev nD) (t : Fin cfg0.N) (k : Fin 1024) (a : Fin 64) :
    w3Blk m c t (ix3 (0 : Fin 1) k a) = m ((c : Thread nD τ).loc main_arg6) (ix3 (memberAt t) k a) := by
  show V m c main_v3 (((cfg0.win 6).blk t).view.emb (ix3 (0 : Fin 1) k a)) = _
  rw [V_w3 m c]
  obtain ⟨-, -, -, -, -, -, -, -, -, -, -, -, -, -, -, -, -, -, -, -, -, -, -, -, e0, e1, e2, -⟩ := idx_facts t
  refine congrArg (m ((c : Thread nD τ).loc main_arg6) : S8x1024x64.Idx → EReal) (ext3 (n0 := 8) (n1 := 1024) (n2 := 64) ?_ ?_ ?_)
  · show win0_6.index t (0 : Fin 3) * 1 + 1 * 0 = win0_8.index t (0 : Fin 3); omega
  · show win0_6.index t (1 : Fin 3) * 1024 + 1 * k.val = k.val; omega
  · show win0_6.index t (2 : Fin 3) * 64 + 1 * a.val = a.val; omega

theorem b3_read (c : Dev nD) (t : Fin cfg0.N) (a : Fin 64) :
    b3Blk m c t (ix3 (0 : Fin 1) (0 : Fin 1) a) = m ((c : Thread nD τ).loc main_arg7) (ix2 (memberAt t) a) := by
  show V m c main_v6 (((cfg0.win 7).blk t).view.emb (ix3 (0 : Fin 1) (0 : Fin 1) a)) = _
  rw [V_b3 m c]
  obtain ⟨-, -, -, -, -, -, -, -, -, -, -, -, -, -, -, -, -, -, -, -, -, -, -, -, -, -, -, e0, e1, e2⟩ := idx_facts t
  refine Eq.trans (congrArg _ (ext3 (n0 := 8) (n1 := 1) (n2 := 64) (j := ix3 (memberAt t) (0 : Fin 1) a) ?_ ?_ ?_))
    (Cert.LibDenseLayer.stackRows_apply _ _ (memberAt t) (0 : Fin 1) a)
  · show win0_7.index t (0 : Fin 3) * 1 + 1 * 0 = win0_8.index t (0 : Fin 3); omega
  · show win0_7.index t (1 : Fin 3) * 1 + 1 * 0 = 0; omega
  · show win0_7.index t (2 : Fin 3) * 64 + 1 * a.val = a.val; omega

/-! ## The member and the rows a point sees -/

/-- Two members with equal parameters are equal. -/
theorem member_ext {A B : Member} (h1 : A.w1 = B.w1) (h2 : A.b1 = B.b1) (h3 : A.w2 = B.w2) (h4 : A.b2 = B.b2)
    (h5 : A.w3 = B.w3) (h6 : A.b3 = B.b3) : A = B := by
  cases A; cases B
  simp only [Member.mk.injEq]
  exact ⟨h1, h2, h3, h4, h5, h6⟩

/-- The six parameter blocks at a point are the point's member's parameters. -/
theorem member_eq (c : Dev nD) (t : Fin cfg0.N) :
    blockMember (w1Blk m c t) (b1Blk m c t) (w2Blk m c t) (b2Blk m c t) (w3Blk m c t) (b3Blk m c t)
      = memberOf (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (memberAt t) :=
  member_ext (funext fun k => funext fun o => w1_read m c t k o) (funext fun o => b1_read m c t o)
    (funext fun k => funext fun o => w2_read m c t k o) (funext fun o => b2_read m c t o)
    (funext fun k => funext fun a => w3_read m c t k a) (funext fun a => b3_read m c t a)

/-- Row `r` of the observation block is batch row `rowAt t r` of the point's member. -/
theorem row_eq (c : Dev nD) (t : Fin cfg0.N) (r : Fin 1024) :
    blockRow (obsBlk m c t) r = rowOf (m ((c : Thread nD τ).loc main_arg0)) (memberAt t) (rowAt t r) :=
  funext fun k => obs_read m c t r k

/-- And of the noise block. -/
theorem noiseRow_eq (c : Dev nD) (t : Fin cfg0.N) (r : Fin 1024) :
    blockNoise (noiseBlk m c t) r = noiseOf (m ((c : Thread nD τ).loc main_arg1)) (memberAt t) (rowAt t r) :=
  funext fun a => noise_read m c t r a

/-! ## What the body leaves in the output blocks, over blocks as variables -/

theorem hz : (![0, 0, 0] : Fin 3 → Nat) = fun _ => 0 := funext fun a => by fin_cases a <;> rfl

theorem out8_at (x0 : FVec Ideal S1x1024x256 .bf16) (x1 : FVec Ideal S1x1024x64 .f32) (x2 : FVec Ideal S1x256x1024 .bf16)
    (x3 : FVec Ideal S1x1x1024 .f32) (x4 : FVec Ideal S1x1024x1024 .bf16) (x5 : FVec Ideal S1x1x1024 .f32)
    (x6 : FVec Ideal S1x1024x64 .bf16) (x7 : FVec Ideal S1x1x64 .f32) (r : Fin 1024) (a : Fin 64) :
    out0_8 (F := Ideal) x0 x1 x2 x3 x4 x5 x6 x7 (ix3 (0 : Fin 1) r a)
      = (blockMember x2 x3 x4 x5 x6 x7).action (blockRow x0 r) a := by
  unfold out0_8
  rw [canon8_eq]
  simp only [View.ld_unit_zero (S := S1x1024x256) hz, View.ld_unit_zero (S := S1x256x1024) hz,
    View.ld_unit_zero (S := S1x1x1024) hz, View.ld_unit_zero (S := S1x1024x1024) hz,
    View.ld_unit_zero (S := S1x1024x64) hz, View.ld_unit_zero (S := S1x1x64) hz]
  exact action_at x0 x2 x3 x4 x5 x6 x7 r a

theorem out9_at (x0 : FVec Ideal S1x1024x256 .bf16) (x1 : FVec Ideal S1x1024x64 .f32) (x2 : FVec Ideal S1x256x1024 .bf16)
    (x3 : FVec Ideal S1x1x1024 .f32) (x4 : FVec Ideal S1x1024x1024 .bf16) (x5 : FVec Ideal S1x1x1024 .f32)
    (x6 : FVec Ideal S1x1024x64 .bf16) (x7 : FVec Ideal S1x1x64 .f32) (r : Fin 1024) (a : Fin 64) :
    out0_9 (F := Ideal) x0 x1 x2 x3 x4 x5 x6 x7 (ix3 (0 : Fin 1) r a)
      = (blockMember x2 x3 x4 x5 x6 x7).sample (blockRow x0 r) (blockNoise x1 r) a := by
  unfold out0_9
  rw [canon9_eq]
  simp only [View.ld_unit_zero (S := S1x1024x256) hz, View.ld_unit_zero (S := S1x256x1024) hz,
    View.ld_unit_zero (S := S1x1x1024) hz, View.ld_unit_zero (S := S1x1024x1024) hz,
    View.ld_unit_zero (S := S1x1024x64) hz, View.ld_unit_zero (S := S1x1x64) hz]
  exact sample_at x0 x2 x3 x4 x5 x6 x7 x1 r a

/-! ## What each point writes back, and the arrays after the run -/

/-- The array of deterministic actions of the launch memory's arguments. -/
abbrev actionsOf (c : Dev nD) : FVec Ideal S8x4096x64 .f32 :=
  actions (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The array of sampled actions of the launch memory's arguments. -/
abbrev samplesOf (c : Dev nD) : FVec Ideal S8x4096x64 .f32 :=
  samples (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- Point `t` writes back block `t` of the array of actions. -/
theorem flushed_actions (c : Dev nD) (t : Fin cfg0.N) :
    (dats m 0 c).flushed 8 t = ((cfg0.win 8).blk t).view.read (Elt Ideal) (actionsOf m c) := by
  rw [flushed8]
  funext y
  obtain ⟨u, r, a, rfl⟩ : ∃ (u : Fin 1) (r : Fin 1024) (a : Fin 64), y = ix3 u r a := ⟨y 0, y 1, y 2, eq_ix3 y⟩
  obtain rfl : u = 0 := Subsingleton.elim _ _
  show out0_8 (F := Ideal) (obsBlk m c t) (noiseBlk m c t) (w1Blk m c t) (b1Blk m c t) (w2Blk m c t) (b2Blk m c t)
      (w3Blk m c t) (b3Blk m c t) (ix3 (0 : Fin 1) r a)
    = actionsOf m c (((cfg0.win 8).blk t).view.emb (ix3 (0 : Fin 1) r a))
  have hi : ((cfg0.win 8).blk t).view.emb (ix3 (0 : Fin 1) r a) = ix3 (memberAt t) (rowAt t r) a := by
    obtain ⟨-, -, e2, -⟩ := idx_facts t
    refine ext3 (n0 := 8) (n1 := 4096) (n2 := 64) ?_ ?_ ?_
    · show win0_8.index t (0 : Fin 3) * 1 + 1 * 0 = win0_8.index t (0 : Fin 3); omega
    · show win0_8.index t (1 : Fin 3) * 1024 + 1 * r.val = win0_8.index t (1 : Fin 3) * 1024 + r.val; omega
    · show win0_8.index t (2 : Fin 3) * 64 + 1 * a.val = a.val; omega
  rw [hi, out8_at, member_eq m c t, row_eq m c t r]
  rfl

/-- Point `t` writes back block `t` of the array of samples. -/
theorem flushed_samples (c : Dev nD) (t : Fin cfg0.N) :
    (dats m 0 c).flushed 9 t = ((cfg0.win 9).blk t).view.read (Elt Ideal) (samplesOf m c) := by
  rw [flushed9]
  funext y
  obtain ⟨u, r, a, rfl⟩ : ∃ (u : Fin 1) (r : Fin 1024) (a : Fin 64), y = ix3 u r a := ⟨y 0, y 1, y 2, eq_ix3 y⟩
  obtain rfl : u = 0 := Subsingleton.elim _ _
  show out0_9 (F := Ideal) (obsBlk m c t) (noiseBlk m c t) (w1Blk m c t) (b1Blk m c t) (w2Blk m c t) (b2Blk m c t)
      (w3Blk m c t) (b3Blk m c t) (ix3 (0 : Fin 1) r a)
    = samplesOf m c (((cfg0.win 9).blk t).view.emb (ix3 (0 : Fin 1) r a))
  have hi : ((cfg0.win 9).blk t).view.emb (ix3 (0 : Fin 1) r a) = ix3 (memberAt t) (rowAt t r) a := by
    obtain ⟨-, -, -, e0, e1, e2, -⟩ := idx_facts t
    refine ext3 (n0 := 8) (n1 := 4096) (n2 := 64) ?_ ?_ ?_
    · show win0_9.index t (0 : Fin 3) * 1 + 1 * 0 = win0_8.index t (0 : Fin 3); omega
    · show win0_9.index t (1 : Fin 3) * 1024 + 1 * r.val = win0_8.index t (1 : Fin 3) * 1024 + r.val; omega
    · show win0_9.index t (2 : Fin 3) * 64 + 1 * a.val = a.val; omega
  rw [hi, out9_at, member_eq m c t, row_eq m c t r, noiseRow_eq m c t r]
  rfl

/-- An index of the first output array is in point `t`'s block iff each coordinate is in the block's range. -/
theorem mem_blk8 (t : Fin cfg0.N) (i : S8x4096x64.Idx) :
    i ∈ ((cfg0.win 8).blk t).view.set ↔ ∀ a : Fin 3, win0_8.index t a * S1x1024x64.size a ≤ (i a).val
      ∧ (i a).val < win0_8.index t a * S1x1024x64.size a + S1x1024x64.size a := by
  show i ∈ ((View.whole main_v7_0).slice (win0_8.rect t)).set ↔ _
  rw [View.set_slice_whole, Rect.mem_set_unit]
  exact Iff.rfl

theorem mem_blk9 (t : Fin cfg0.N) (i : S8x4096x64.Idx) :
    i ∈ ((cfg0.win 9).blk t).view.set ↔ ∀ a : Fin 3, win0_9.index t a * S1x1024x64.size a ≤ (i a).val
      ∧ (i a).val < win0_9.index t a * S1x1024x64.size a + S1x1024x64.size a := by
  show i ∈ ((View.whole main_v7_1).slice (win0_9.rect t)).set ↔ _
  rw [View.set_slice_whole, Rect.mem_set_unit]
  exact Iff.rfl

/-- The 32 blocks tile each output array: entry (e, b, a) is in the block of the point of member `e` and tile
    `b / 1024`. -/
theorem cover8 (i : S8x4096x64.Idx) :
    ∃ t : Fin cfg0.N, (cfg0.win 8).flush t = true ∧ i ∈ ((cfg0.win 8).blk t).view.set := by
  have hi0 : (i 0).val < 8 := (i 0).isLt
  have hi1 : (i 1).val < 4096 := (i 1).isLt
  have hi2 : (i 2).val < 64 := (i 2).isLt
  obtain ⟨t, ht, -⟩ := idx_onto ⟨(i 0).val, hi0⟩ ⟨(i 1).val / 1024, by omega⟩
  have q0 : win0_8.index t (0 : Fin 3) = (i 0).val := congrFun ht 0
  have q1 : win0_8.index t (1 : Fin 3) = (i 1).val / 1024 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 64 ≤ (i 2).val ∧ (i 2).val < win0_8.index t (2 : Fin 3) * 64 + 64; omega

theorem cover9 (i : S8x4096x64.Idx) :
    ∃ t : Fin cfg0.N, (cfg0.win 9).flush t = true ∧ i ∈ ((cfg0.win 9).blk t).view.set := by
  have hi0 : (i 0).val < 8 := (i 0).isLt
  have hi1 : (i 1).val < 4096 := (i 1).isLt
  have hi2 : (i 2).val < 64 := (i 2).isLt
  obtain ⟨t, -, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 64 ≤ (i 2).val ∧ (i 2).val < win0_9.index t (2 : Fin 3) * 64 + 64; omega

/-- After the run the first output array is the array of actions, -/
theorem final_actions (c : Dev nD) : (dats m 0 c).arrAt 8 cfg0.N = actionsOf m c :=
  (dats m 0 c).arrAt_eq_of_cover 8 (actionsOf m c) (fun t _ => flushed_actions m c t) cover8

/-- and the second the array of samples. -/
theorem final_samples (c : Dev nD) : (dats m 0 c).arrAt 9 cfg0.N = samplesOf m c :=
  (dats m 0 c).arrAt_eq_of_cover 9 (samplesOf m c) (fun t _ => flushed_samples m c t) cover9

/-- The kernel's run, read: every weakly fair execution ends with the two result arrays at the specification's
    arrays of the launch memory's arguments, and the arguments unchanged. -/
theorem run : θ_run defs (onTc (τ := τ) (main (F := Ideal))) ⟨m, fun _ => 0, ρ⟩ fun r => ∀ c : Dev nD,
      r.2.mem ((c : Thread nD τ).loc main_v7_0) = actionsOf m c
      ∧ r.2.mem ((c : Thread nD τ).loc main_v7_1) = samplesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_actions m c), (h c).2.1.trans (final_samples m c), (h c).2.2⟩)
    (run_blocks m ρ)

end Cert.Policy.Blocks

end
-- ==== Proof.Consts.lean ====
/-
  The two float constants by which the kernel and the reference take the mean of a row of 64 magnitudes.

  The kernel multiplies the row's sum by the single-precision constant 2⁻⁶, the reference divides it by the
  single-precision constant 64. Both constants are exact: the first denotes the real number 1/64 and the second the
  real number 64. On the extended reals division by a nonzero real is multiplication by its reciprocal, at the
  infinities too, so the two means are one function of the sum.
-/
import Idealize.ShloMosaic.PureOps.Ideal

noncomputable section

namespace Cert.Consts

open Idealize.ShloMosaic

/-- The pattern of `64.0` denotes the real number 64. -/
theorem ofBits_64 : Ideal.ofBits .f32 0x42800000#32 = ((64 : ℝ) : EReal) := by
  simp [Ideal.ofBits, Ideal.ieee, -EReal.coe_mul]; norm_num

/-- The pattern of `0.015625` denotes the real number 1/64. -/
theorem ofBits_inv64 : Ideal.ofBits .f32 0x3C800000#32 = ((1 / 64 : ℝ) : EReal) := by
  simp [Ideal.ofBits, Ideal.ieee, -EReal.coe_mul]; norm_num

/-- Dividing by the first constant is multiplying by the second, for every extended real. -/
theorem div_64 (s : EReal) :
    Ideal.div s (Ideal.ofBits .f32 0x42800000#32) = s * Ideal.ofBits .f32 0x3C800000#32 := by
  rw [ofBits_64, ofBits_inv64]
  exact Ideal.div_coe (by norm_num) s

end Cert.Consts

end
-- ==== Proof.RefIsSpec.lean ====
/-
  The reference, read at one entry, is the row function of the specification.

  The reference treats the eight members at once by batched matrix products: entry (e, b, o) of a product contracts
  row `b` of member `e`'s left operand with column `o` of member `e`'s right operand, so layer by layer entry
  (e, b, ·) depends on observation row (e, b) and member `e`'s parameters only. Its mean magnitude divides the sum
  by 64 where the specification multiplies by 2⁻⁶: one function on the extended reals. Its sum starts from the
  constant zero, which adds nothing.
-/
import proofs.«119504_j60902636257569_1_alg».proof.Proof.Gen.ReferenceIdeal.Read
import proofs.«119504_j60902636257569_1_alg».proof.Proof.Spec
import proofs.«119504_j60902636257569_1_alg».proof.Proof.Consts
import Idealize.ShloMosaic.PureOps.Ideal.Laws

noncomputable section

open scoped BigOperators

namespace Cert.Policy.Reference

open Cert.ReferenceIdeal Cert.ReferenceIdeal.Read Idealize.ShloMosaic Idealize.ShloMosaic.ValueIdx Cert.Policy

variable (x0 : FVec Ideal S8x4096x256 .f32) (x1 : FVec Ideal S8x4096x64 .f32) (x2 : FVec Ideal S8x256x1024 .f32)
  (x3 : FVec Ideal S8x1024 .f32) (x4 : FVec Ideal S8x1024x1024 .f32) (x5 : FVec Ideal S8x1024 .f32)
  (x6 : FVec Ideal S8x1024x64 .f32) (x7 : FVec Ideal S8x64 .f32)

/-- The first rectified layer at `(e, b, o)`. -/
theorem hidden1_eq (e : Fin 8) (b : Fin 4096) (o : Fin 1024) :
    val_main_v4 (F := Ideal) x0 x2 x3 (ix3 e b o) = (memberOf x2 x3 x4 x5 x6 x7 e).hidden1 (rowOf x0 e b) o := by
  rw [val_main_v4_apply, val_main_v3_apply, val_main_v0_apply, val_main_v2_apply, val_main_v1_apply,
    val_main_call0_v0_apply, val_main_call0_cst_apply]
  refine congrArg₂ max (congrArg₂ (· + ·) (Finset.sum_congr rfl fun k _ => ?_) ?_) rfl
  · rw [show lidx_main_v0 (ix3 e b o) k = ix3 e b k from ext3 rfl rfl rfl,
      show ridx_main_v0 (ix3 e b o) k = ix3 e k o from ext3 rfl rfl rfl]
    rfl
  · exact congrArg x3 (ext2 rfl rfl)

/-- The second rectified layer at `(e, b, o)`. -/
theorem hidden2_eq (e : Fin 8) (b : Fin 4096) (o : Fin 1024) :
    val_main_v9 (F := Ideal) x0 x2 x3 x4 x5 (ix3 e b o) = (memberOf x2 x3 x4 x5 x6 x7 e).hidden2 (rowOf x0 e b) o := by
  rw [val_main_v9_apply, val_main_v8_apply, val_main_v5_apply, val_main_v7_apply, val_main_v6_apply,
    val_main_call1_v0_apply, val_main_call1_cst_apply]
  refine congrArg₂ max (congrArg₂ (· + ·) (Finset.sum_congr rfl fun k _ => ?_) ?_) rfl
  · rw [show lidx_main_v5 (ix3 e b o) k = ix3 e b k from ext3 rfl rfl rfl,
      show ridx_main_v5 (ix3 e b o) k = ix3 e k o from ext3 rfl rfl rfl, hidden1_eq x0 x2 x3 x4 x5 x6 x7]
    rfl
  · exact congrArg x5 (ext2 rfl rfl)

/-- The raw means at `(e, b, a)`. -/
theorem mean_eq (e : Fin 8) (b : Fin 4096) (a : Fin 64) :
    val_main_v13 (F := Ideal) x0 x2 x3 x4 x5 x6 x7 (ix3 e b a) = (memberOf x2 x3 x4 x5 x6 x7 e).mean (rowOf x0 e b) a := by
  rw [val_main_v13_apply, val_main_v10_apply, val_main_v12_apply, val_main_v11_apply]
  refine congrArg₂ (· + ·) (Finset.sum_congr rfl fun k _ => ?_) ?_
  · rw [show lidx_main_v10 (ix3 e b a) k = ix3 e b k from ext3 rfl rfl rfl,
      show ridx_main_v10 (ix3 e b a) k = ix3 e k a from ext3 rfl rfl rfl, hidden2_eq x0 x2 x3 x4 x5 x6 x7]
    rfl
  · exact congrArg x7 (ext2 rfl rfl)

/-- The normalizer at `(e, b, 0)`: the quotient of the magnitude sum by 64 is its product with 2⁻⁶. -/
theorem scale_eq (e : Fin 8) (b : Fin 4096) :
    val_main_v20 (F := Ideal) x0 x2 x3 x4 x5 x6 x7 (ix3 e b (0 : Fin 1))
      = (memberOf x2 x3 x4 x5 x6 x7 e).scale (rowOf x0 e b) := by
  rw [val_main_v20_apply, val_main_v18_apply, val_main_v16_apply, val_main_v15_apply, val_main_v17_apply,
    val_main_v19_apply, val_main_cst_apply, val_main_cst_0_apply, val_main_cst_1_apply]
  show max (Ideal.div (Ideal.ofBits .f32 0x00000000#32 + ∑ k : Fin 64, _) (Ideal.ofBits .f32 0x42800000#32))
    (Ideal.ofBits .f32 0x3F800000#32) = _
  rw [Cert.Consts.div_64, Ideal.ofBits_zero_f32, zero_add]
  refine congrArg (max · (Ideal.ofBits .f32 0x3F800000#32))
    (congrArg (· * Ideal.ofBits .f32 0x3C800000#32) (Finset.sum_congr rfl fun k _ => ?_))
  rw [val_main_v14_apply,
    show idx_main_v15 (idx_main_v16 (ix3 e b (0 : Fin 1))) k = ix3 e b k from ext3 rfl rfl rfl,
    mean_eq x0 x2 x3 x4 x5 x6 x7]
  rfl

/-- The reference's first result is the array of deterministic actions. -/
theorem actions_eq :
    val_main_v28 (F := Ideal) x0 x2 x3 x4 x5 x6 x7 = actions x0 x2 x3 x4 x5 x6 x7 := by
  funext i
  obtain ⟨e, b, a, rfl⟩ : ∃ (e : Fin 8) (b : Fin 4096) (a : Fin 64), i = ix3 e b a := ⟨i 0, i 1, i 2, eq_ix3 i⟩
  rw [actions_apply, val_main_v28_apply, val_main_v26_apply, val_main_v22_apply, val_main_v21_apply,
    val_main_v27_apply, val_main_cst_3_apply, mean_eq x0 x2 x3 x4 x5 x6 x7,
    show idx_main_v21 (ix3 e b a) = ix3 e b (0 : Fin 1) from ext3 rfl rfl rfl, scale_eq x0 x2 x3 x4 x5 x6 x7]
  rfl

/-- The reference's second result is the array of sampled actions. -/
theorem samples_eq :
    val_main_v31 (F := Ideal) x0 x1 x2 x3 x4 x5 x6 x7 = samples x0 x1 x2 x3 x4 x5 x6 x7 := by
  funext i
  obtain ⟨e, b, a, rfl⟩ : ∃ (e : Fin 8) (b : Fin 4096) (a : Fin 64), i = ix3 e b a := ⟨i 0, i 1, i 2, eq_ix3 i⟩
  rw [samples_apply, val_main_v31_apply, val_main_v29_apply, val_main_v25_apply, val_main_v22_apply,
    val_main_v21_apply, val_main_v24_apply, val_main_v23_apply, val_main_cst_2_apply, val_main_v30_apply,
    val_main_cst_4_apply, mean_eq x0 x2 x3 x4 x5 x6 x7,
    show idx_main_v21 (ix3 e b a) = ix3 e b (0 : Fin 1) from ext3 rfl rfl rfl, scale_eq x0 x2 x3 x4 x5 x6 x7]
  rfl

end Cert.Policy.Reference

end
-- ==== Proof.lean ====
/-
  An ensemble of eight three-layer perceptrons with a normalized tanh head: the Pallas kernel against its jnp reference.

  Both programs compute, for member `e` and batch row `b`, the row function of Proof/Spec.lean: two rectified affine
  layers, an affine layer giving 64 raw action means, their division by the mean magnitude clamped below at one, and
  tanh of the result — once as it is (the deterministic action) and once with the row's noise, scaled by the
  single-precision constant nearest 0.1, added first (the sampled action).

  The kernel runs on a grid of 8 members × 4 tiles of 1024 rows; it multiplies in bfloat16 operands, which on exact
  values changes nothing, and takes the mean magnitude by multiplying the sum by 2⁻⁶. The reference uses batched
  matrix products over all members and rows at once and divides the sum by 64. On the extended reals these are the
  same function of the arguments, entry by entry, with no condition on the inputs: no law beyond the reordering of
  finite sums and `x / 64 = x · 2⁻⁶` is used, and both hold at the infinities.

  Proof/KernelRow.lean reads the kernel's body at one entry of its output blocks, Proof/Blocks.lean carries that
  from the 32 blocks to the whole output arrays (the kernel's run), Proof/RefIsSpec.lean reads the reference's run at
  one entry. The two frames of the kernel are the generated frame certificates, the reference's frame is its
  generated run with the results dropped, and the idealization rewrote nothing.
-/
import proofs.«119504_j60902636257569_1_alg».proof.Defs
import proofs.«119504_j60902636257569_1_alg».proof.Proof.Gen.Kernel
import proofs.«119504_j60902636257569_1_alg».proof.Proof.Gen.Kernel.Skeleton
import proofs.«119504_j60902636257569_1_alg».proof.Proof.Gen.Kernel.Launch
import proofs.«119504_j60902636257569_1_alg».proof.Proof.Gen.Kernel.Points
import proofs.«119504_j60902636257569_1_alg».proof.Proof.Gen.Kernel.Frame
import proofs.«119504_j60902636257569_1_alg».proof.Proof.Gen.KernelIdeal
import proofs.«119504_j60902636257569_1_alg».proof.Proof.Gen.KernelIdeal.Skeleton
import proofs.«119504_j60902636257569_1_alg».proof.Proof.Gen.KernelIdeal.Launch
import proofs.«119504_j60902636257569_1_alg».proof.Proof.Gen.KernelIdeal.Points
import proofs.«119504_j60902636257569_1_alg».proof.Proof.Gen.KernelIdeal.Frame
import proofs.«119504_j60902636257569_1_alg».proof.Proof.Gen.ReferenceIdeal
import proofs.«119504_j60902636257569_1_alg».proof.Proof.Gen.Pre_finite_inputs
import proofs.«119504_j60902636257569_1_alg».proof.Proof.Gen.KernelIdeal.Value
import proofs.«119504_j60902636257569_1_alg».proof.Proof.Gen.ReferenceIdeal.Run
import proofs.«119504_j60902636257569_1_alg».proof.Proof.Gen.ReferenceIdeal.Read
import proofs.«119504_j60902636257569_1_alg».proof.Proof.Blocks
import proofs.«119504_j60902636257569_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the specification's two arrays of arguments that agree. -/
theorem algebraic : Cert.algebraic_KernelIdeal_ReferenceIdeal := by
  intro m ρ m' ρ' _ hagree
  refine ⟨fun c => Cert.Policy.Blocks.actionsOf m c, fun c => Cert.Policy.Blocks.samplesOf m c,
    Cert.Policy.Blocks.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, -, h2, h3, h4, h5, h6, h7⟩ := hagree c
    rw [Cert.ReferenceIdeal.Read.val_main_v28_eq, Cert.Policy.Reference.actions_eq, h0, h2, h3, h4, h5, h6, h7]
  · obtain ⟨h0, h1, h2, h3, h4, h5, h6, h7⟩ := hagree c
    rw [Cert.ReferenceIdeal.Read.val_main_v31_eq, Cert.Policy.Reference.samples_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
